-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S3x1024x1024 : Shape := ⟨3, ![3, 1024, 1024]⟩
abbrev S3x1024 : Shape := ⟨2, ![3, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S3x1024x1024 : S_.BroadcastsInDim S3x1024x1024 (![] : Fin 0 → Fin S3x1024x1024.rank)
  reducesTo_S3x1024x1024_S_d0_1_2 : S3x1024x1024.ReducesTo [0, 1, 2] S_
  bcast_S_S3x1024 : S_.BroadcastsInDim S3x1024 (![] : Fin 0 → Fin S3x1024.rank)
  reducesTo_S3x1024_S_d0_1 : S3x1024.ReducesTo [0, 1] S_

variable [Facts]

def fn_part1 {F : FTy → Type} [FloatOps F] (main_arg4 : FVec F S3x1024 .f32) (main_v13 : IVec S_ 1) (main_v16 : IVec S3x1024x1024 1) : IVec S_ 1 :=
  let main_c_5 : IVec S_ 1 := constantI S_ 1 1#1
  let main_v17 : IVec S_ 1 := (fun x v => Host.reduce IntOp.andi x v reducesTo_S3x1024x1024_S_d0_1_2 h_S_) main_v16 main_c_5
  let main_v18 : IVec S_ 1 := andi main_v13 main_v17
  let main_v19 : FVec F S3x1024 .f32 := Host.absf main_arg4
  let main_cst_6 : FVec F S_ .f32 := constant S_ .f32 0x7F800000#32
  let main_v20 : FVec F S3x1024 .f32 := broadcastInDim S3x1024 ![] bcast_S_S3x1024 main_cst_6
  let main_v21 : IVec S3x1024 1 := cmpf .olt main_v19 main_v20
  let main_c_7 : IVec S_ 1 := constantI S_ 1 1#1
  let main_v22 : IVec S_ 1 := (fun x v => Host.reduce IntOp.andi x v reducesTo_S3x1024_S_d0_1 h_S_) main_v21 main_c_7
  let main_v23 : IVec S_ 1 := andi main_v18 main_v22
  main_v23

def fn {F : FTy → Type} [FloatOps F] (main_arg0 : FVec F S16384x1024 .f32) (main_arg1 : FVec F S16384x1024 .f32) (main_arg2 : FVec F S3x1024x1024 .f32) (main_arg3 : FVec F S3x1024x1024 .f32) (main_arg4 : FVec F S3x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S3x1024x1024 .f32 := Host.absf main_arg2
  let main_cst_2 : FVec F S_ .f32 := constant S_ .f32 0x7F800000#32
  let main_v10 : FVec F S3x1024x1024 .f32 := broadcastInDim S3x1024x1024 ![] bcast_S_S3x1024x1024 main_cst_2
  let main_v11 : IVec S3x1024x1024 1 := cmpf .olt main_v9 main_v10
  let main_c_3 : IVec S_ 1 := constantI S_ 1 1#1
  let main_v12 : IVec S_ 1 := (fun x v => Host.reduce IntOp.andi x v reducesTo_S3x1024x1024_S_d0_1_2 h_S_) main_v11 main_c_3
  let main_v13 : IVec S_ 1 := andi main_v8 main_v12
  let main_v14 : FVec F S3x1024x1024 .f32 := Host.absf main_arg3
  let main_cst_4 : FVec F S_ .f32 := constant S_ .f32 0x7F800000#32
  let main_v15 : FVec F S3x1024x1024 .f32 := broadcastInDim S3x1024x1024 ![] bcast_S_S3x1024x1024 main_cst_4
  let main_v16 : IVec S3x1024x1024 1 := cmpf .olt main_v14 main_v15
  fn_part1 (F := F) main_arg4 main_v13 main_v16
-- ==== Kernel.lean ====
abbrev S16384x1024 : Shape := ⟨2, ![16384, 1024]⟩
abbrev S3x1024x1024 : Shape := ⟨3, ![3, 1024, 1024]⟩
abbrev S3x1024 : Shape := ⟨2, ![3, 1024]⟩
abbrev S256x1024 : Shape := ⟨2, ![256, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 8
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S3x1024x1024, .f32⟩
  | .hbm, ⟨3, _⟩ => ⟨S3x1024x1024, .f32⟩
  | .hbm, ⟨4, _⟩ => ⟨S3x1024, .f32⟩
  | .hbm, ⟨5, _⟩ => ⟨S3x1024x1024, .bf16⟩
  | .hbm, ⟨6, _⟩ => ⟨S3x1024x1024, .bf16⟩
  | .hbm, ⟨7, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S3x1024x1024, .bf16⟩
  | .local _ .vmem, ⟨5, _⟩ => ⟨S3x1024x1024, .bf16⟩
  | .local _ .vmem, ⟨6, _⟩ => ⟨S3x1024, .f32⟩
  | .local _ .vmem, ⟨7, _⟩ => ⟨S256x1024, .f32⟩
  | .local _ .vmem, ⟨8, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S3x1024x1024_S3x1024x1024_0_0_0 : ∀ a, (![0, 0, 0] : Fin 3 → Nat) a + S3x1024x1024.size a ≤ S3x1024x1024.size a
  h_S3x1024x1024 : 0 < S3x1024x1024.numel
  shapeCasts_S3x1024x1024_S3x1024x1024 : S3x1024x1024.ShapeCasts S3x1024x1024
  inb_S3x1024_S3x1024_0_0 : ∀ a, (![0, 0] : Fin 2 → Nat) a + S3x1024.size a ≤ S3x1024.size a
  h_S3x1024 : 0 < S3x1024.numel
  slices_S3x1024x1024_o0_0_0_S1x1024x1024 : S3x1024x1024.Slices ![0, 0, 0] S1x1024x1024
  shapeCasts_S1x1024x1024_S1024x1024 : S1x1024x1024.ShapeCasts S1024x1024
  slices_S3x1024x1024_o1_0_0_S1x1024x1024 : S3x1024x1024.Slices ![1, 0, 0] S1x1024x1024
  slices_S3x1024x1024_o2_0_0_S1x1024x1024 : S3x1024x1024.Slices ![2, 0, 0] S1x1024x1024
  slices_S3x1024_o0_0_S1x1024 : S3x1024.Slices ![0, 0] S1x1024
  shapeCasts_S1x1024_S1024 : S1x1024.ShapeCasts S1024
  shapeCasts_S1024_S1x1024 : S1024.ShapeCasts S1x1024
  broadcasts_S1x1024_S256x1024 : S1x1024.Broadcasts S256x1024
  slices_S3x1024_o1_0_S1x1024 : S3x1024.Slices ![1, 0] S1x1024
  slices_S3x1024_o2_0_S1x1024 : S3x1024.Slices ![2, 0] S1x1024
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1024x1024.size a ≤ S3x1024x1024.size a
  hwx0_2 : ∀ i : grid0.Coords, EltTy.bits .bf16 = 32 ∨ (Rect.block (s := S3x1024x1024) S3x1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x1024x1024.size a ≤ S3x1024x1024.size a
  hwx0_3 : ∀ i : grid0.Coords, EltTy.bits .bf16 = 32 ∨ (Rect.block (s := S3x1024x1024) S3x1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x1024.size a ≤ S3x1024.size a
  hwx0_4 : ∀ i : grid0.Coords, EltTy.bits .f32 = 32 ∨ (Rect.block (s := S3x1024) S3x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S16384x1024.size a
  hwx0_5 : ∀ i : grid0.Coords, EltTy.bits .f32 = 32 ∨ (Rect.block (s := S16384x1024) S256x1024.size (cc0_transform_5 i) (hinb0_5 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3x1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S3x1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S3x1024x1024 : Shape := ⟨3, ![3, 1024, 1024]⟩
abbrev S3x1024 : Shape := ⟨2, ![3, 1024]⟩
abbrev S3x1024x16384 : Shape := ⟨3, ![3, 1024, 16384]⟩
abbrev S3x16384x1024 : Shape := ⟨3, ![3, 16384, 1024]⟩
abbrev S1x16384x1024 : Shape := ⟨3, ![1, 16384, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S3x1024x1024, .f32⟩
  | .hbm, ⟨3, _⟩ => ⟨S3x1024x1024, .f32⟩
  | .hbm, ⟨4, _⟩ => ⟨S3x1024, .f32⟩
  | .hbm, ⟨5, _⟩ => ⟨S3x1024x16384, .f32⟩
  | .hbm, ⟨6, _⟩ => ⟨S3x16384x1024, .f32⟩
  | .hbm, ⟨7, _⟩ => ⟨S1x16384x1024, .f32⟩
  | .hbm, ⟨8, _⟩ => ⟨S16384x1024, .f32⟩
  | .hbm, ⟨9, _⟩ => ⟨S1x1024x1024, .f32⟩
  | .hbm, ⟨10, _⟩ => ⟨S1024x1024, .f32⟩
  | .hbm, ⟨11, _⟩ => ⟨S1024x1024, .f32⟩
  | .hbm, ⟨12, _⟩ => ⟨S16384x1024, .f32⟩
  | .hbm, ⟨13, _⟩ => ⟨S16384x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S1x16384x1024, .f32⟩
  | .hbm, ⟨28, _⟩ => ⟨S16384x1024, .f32⟩
  | .hbm, ⟨29, _⟩ => ⟨S1x1024x1024, .f32⟩
  | .hbm, ⟨30, _⟩ => ⟨S1024x1024, .f32⟩
  | .hbm, ⟨31, _⟩ => ⟨S1024x1024, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S1x16384x1024, .f32⟩
  | .hbm, ⟨48, _⟩ => ⟨S16384x1024, .f32⟩
  | .hbm, ⟨49, _⟩ => ⟨S16384x1024, .f32⟩
  | .hbm, ⟨50, _⟩ => ⟨S1x1024x1024, .f32⟩
  | .hbm, ⟨51, _⟩ => ⟨S1024x1024, .f32⟩
  | .hbm, ⟨52, _⟩ => ⟨S1024x1024, .f32⟩
  | .hbm, ⟨53, _⟩ => ⟨S16384x1024, .f32⟩
  | .hbm, ⟨54, _⟩ => ⟨S16384x1024, .f32⟩
  | .hbm, ⟨55, _⟩ => ⟨S1x1024, .f32⟩
  | .hbm, ⟨56, _⟩ => ⟨S1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_1 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_call0_cst : Ref sig .tc := ⟨.hbm, 60, rfl⟩
abbrev main_call0_v0 : Ref sig .tc := ⟨.hbm, 61, rfl⟩
abbrev main_v51 : Ref sig .tc := ⟨.hbm, 62, rfl⟩
abbrev main_cst_3 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩

abbrev nD : Nat := 1
abbrev τ : Topo := Topo.v7x

variable {F : FTy → Type} [FloatOps F]

class Facts₀ : Prop where
  transposes_S3x1024x16384_S3x16384x1024_0_2_1 : S3x1024x16384.Transposes [0, 2, 1] S3x16384x1024
  slices_S3x16384x1024_S1x16384x1024_0_0_0 : S3x16384x1024.Slices ![0, 0, 0] S1x16384x1024
  shapeCasts_S1x16384x1024_S16384x1024 : S1x16384x1024.ShapeCasts S16384x1024
  slices_S3x1024x1024_S1x1024x1024_0_0_0 : S3x1024x1024.Slices ![0, 0, 0] S1x1024x1024
  shapeCasts_S1x1024x1024_S1024x1024 : S1x1024x1024.ShapeCasts S1024x1024
  transposes_S1024x1024_S1024x1024_1_0 : S1024x1024.Transposes [1, 0] S1024x1024
  slices_S3x1024_S1x1024_0_0 : S3x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  slices_S3x16384x1024_S1x16384x1024_1_0_0 : S3x16384x1024.Slices ![1, 0, 0] S1x16384x1024
  slices_S3x1024x1024_S1x1024x1024_1_0_0 : S3x1024x1024.Slices ![1, 0, 0] S1x1024x1024
  slices_S3x1024_S1x1024_1_0 : S3x1024.Slices ![1, 0] S1x1024
  slices_S3x16384x1024_S1x16384x1024_2_0_0 : S3x16384x1024.Slices ![2, 0, 0] S1x16384x1024
  slices_S3x1024x1024_S1x1024x1024_2_0_0 : S3x1024x1024.Slices ![2, 0, 0] S1x1024x1024
  slices_S3x1024_S1x1024_2_0 : S3x1024.Slices ![2, 0] S1x1024
  dot_S3x1024x1024_S16384x1024_S3x1024x16384_2_1_01_0_n_n_wf : DotDims.WF S3x1024x1024 S16384x1024 S3x1024x16384 [2] [1] [0, 1] [0] [] []
  dot_S16384x1024_S1024x1024_S16384x1024_1_0_0_1_n_n_wf : DotDims.WF S16384x1024 S1024x1024 S16384x1024 [1] [0] [0] [1] [] []

variable [Facts₀]

def dot_S3x1024x1024_S16384x1024_S3x1024x16384_2_1_01_0_n_n : DotDims S3x1024x1024 S16384x1024 S3x1024x16384 where
  lhsContracting := [2]
  rhsContracting := [1]
  lhsNonContracting := [0, 1]
  rhsNonContracting := [0]
  lhsBatch := []
  rhsBatch := []
  wf := dot_S3x1024x1024_S16384x1024_S3x1024x16384_2_1_01_0_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.GruSpec.lean ====
/-
  One step of a gated recurrent cell whose candidate uses a rectifier, written once, row by row.

  For one batch row with input features `xr` and previous hidden state `hr` (each 1024 numbers), input weights `W`
  and recurrent weights `V` (three 1024 × 1024 matrices each, stored output-unit major) and biases `b` (three rows),
  gate `g`'s pre-activation at hidden unit `q` is

      a_g(q) = (Σ_k xr(k) · W(g, q, k)  +  Σ_k ur(k) · V(g, q, k))  +  b(g, q),

  with `ur = hr` for the update gate (g = 0) and the reset gate (g = 1), and `ur(k) = hr(k) · σ(a_1(k))` — the hidden
  state scaled unit by unit by the reset gate — for the candidate (g = 2). With z = σ(a_0(q)) and n = max(a_2(q), 0) the
  new hidden state is (1 − z) · n + z · hr(q). All of it is read on the extended reals, the sums in the order written.
-/
import Idealize.ShloMosaic.PureOps.Ideal
import Idealize.ShloMosaic.Lib.ValueIdx

noncomputable section

namespace Cert.Gru

open Idealize.ShloMosaic Idealize.ShloMosaic.ValueIdx

/-- Three stacked 1024 × 1024 weight matrices, indexed (gate, output unit, input unit). -/
abbrev Wts : Type := (⟨3, ![3, 1024, 1024]⟩ : Shape).Idx → EReal
/-- Three bias rows, indexed (gate, output unit). -/
abbrev Bias : Type := (⟨2, ![3, 1024]⟩ : Shape).Idx → EReal
/-- A batch of 16384 rows of 1024 numbers. -/
abbrev Batch : Type := (⟨2, ![16384, 1024]⟩ : Shape).Idx → EReal

/-- Gate `g`'s pre-activation at hidden unit `q` for one row: the input's product with row `q` of `W g`, plus the
    recurrent operand's product with row `q` of `V g`, plus the bias — added in this order. -/
def gate (g : Fin 3) (xr ur : Fin 1024 → EReal) (W V : Wts) (b : Bias) (q : Fin 1024) : EReal :=
  ((∑ k : Fin 1024, xr k * W (ix3 g q k)) + ∑ k : Fin 1024, ur k * V (ix3 g q k)) + b (ix2 g q)

/-- The new hidden state at unit `q` for one row: `(1 − z) · n + z · h`, with `z` the update gate, `n` the rectified
    candidate whose recurrent operand is the hidden state scaled by the reset gate. -/
def cell (xr hr : Fin 1024 → EReal) (W V : Wts) (b : Bias) (q : Fin 1024) : EReal :=
  (Ideal.ofBits .f32 0x3F800000#32 - Ideal.logistic (gate 0 xr hr W V b q))
      * max (gate 2 xr (fun k => hr k * Ideal.logistic (gate 1 xr hr W V b k)) W V b q) (Ideal.ofBits .f32 0x00000000#32)
    + Ideal.logistic (gate 0 xr hr W V b q) * hr q

/-- The whole batch: every row of the result is the cell applied to the same row of the input and of the hidden state. -/
def layer (x h : Batch) (W V : Wts) (b : Bias) : Batch :=
  fun j => cell (fun k => x (ix2 (j 0) k)) (fun k => h (ix2 (j 0) k)) W V b (j 1)

theorem layer_apply (x h : Batch) (W V : Wts) (b : Bias) (r : Fin 16384) (q : Fin 1024) :
    layer x h W V b (ix2 r q) = cell (fun k => x (ix2 r k)) (fun k => h (ix2 r k)) W V b q := rfl

end Cert.Gru

end
-- ==== Proof.BodyIsCell.lean ====
/-
  What one grid point's body stores, read at an index.

  The body holds a block of 256 batch rows of the input `x` and of the hidden state `h`, all three input-weight
  matrices `W`, all three recurrent-weight matrices `V` and the three bias rows `b`. Every product it forms is of a
  256 × 1024 operand with a 1024 × 1024 weight matrix whose SECOND axis is contracted: at (p, q) it is
  Σ_k l(p, k) · w(q, k), a row of the operand against a row of the weights. Gate `g`'s matrix is the slice at `g`
  of the stack, its bias the slice at `g` of the rows, repeated down the block. So the value stored at (p, q) depends
  only on row `p` of the two blocks, and is the recurrent cell of that row (`Cert.Gru.cell`).
-/
import proofs.«114432_j51187420234361_1_alg».proof.Proof.Gen.KernelIdeal.Frame
import proofs.«114432_j51187420234361_1_alg».proof.Proof.GruSpec
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.TcCoe Idealize.ShloMosaic.ValueIdx

/-! ## A 256 × 1024 operand times the transpose of a 1024 × 1024 matrix -/

/-- The left operand's row is the result's row. -/
theorem lhs_0 (i : S256x1024.Idx) (κ : dot_S256x1024_S1024x1024_S256x1024_1_1_0_0_n_n.contr.Idx) :
    (dot_S256x1024_S1024x1024_S256x1024_1_1_0_0_n_n.lhsIdx i κ 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
/-- The left operand's column is the contraction position. -/
theorem lhs_1 (i : S256x1024.Idx) (κ : dot_S256x1024_S1024x1024_S256x1024_1_1_0_0_n_n.contr.Idx) :
    (dot_S256x1024_S1024x1024_S256x1024_1_1_0_0_n_n.lhsIdx i κ 1).val = (κ ⟨0, by decide⟩).val :=
  dot_S256x1024_S1024x1024_S256x1024_1_1_0_0_n_n.lhsIdx_val_of_single rfl i κ
/-- The right operand's row is the result's column. -/
theorem rhs_0 (i : S256x1024.Idx) (κ : dot_S256x1024_S1024x1024_S256x1024_1_1_0_0_n_n.contr.Idx) :
    (dot_S256x1024_S1024x1024_S256x1024_1_1_0_0_n_n.rhsIdx i κ 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
/-- The right operand's column is the contraction position. -/
theorem rhs_1 (i : S256x1024.Idx) (κ : dot_S256x1024_S1024x1024_S256x1024_1_1_0_0_n_n.contr.Idx) :
    (dot_S256x1024_S1024x1024_S256x1024_1_1_0_0_n_n.rhsIdx i κ 1).val = (κ ⟨0, by decide⟩).val :=
  dot_S256x1024_S1024x1024_S256x1024_1_1_0_0_n_n.rhsIdx_val_of_single rfl i κ

/-- Accumulated into zero, the product at (p, q) is the sum over k of the left operand at (p, k) times the right at (q, k). -/
theorem matmulT_apply (l : FVec Ideal S256x1024 .bf16) (w : FVec Ideal S1024x1024 .bf16) (p : Fin 256) (q : Fin 1024) :
    matmul dot_S256x1024_S1024x1024_S256x1024_1_1_0_0_n_n none l w (constant S256x1024 .f32 0x00000000#32) (ix2 p q)
      = ∑ k : Fin 1024, l (ix2 p k) * w (ix2 q k) := by
  simp only [matmul]
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p q) ((contrEquiv1 dot_S256x1024_S1024x1024_S256x1024_1_1_0_0_n_n 1024 rfl rfl).symm k) = ix2 p k := funext fun a => Fin.ext (by
    match a with
    | ⟨0, _⟩ => exact lhs_0 _ _
    | ⟨1, _⟩ => exact (lhs_1 _ _).trans hk)
  have er : dot_S256x1024_S1024x1024_S256x1024_1_1_0_0_n_n.rhsIdx (ix2 p q) ((contrEquiv1 dot_S256x1024_S1024x1024_S256x1024_1_1_0_0_n_n 1024 rfl rfl).symm k) = ix2 q k := funext fun a => Fin.ext (by
    match a with
    | ⟨0, _⟩ => exact rhs_0 _ _
    | ⟨1, _⟩ => exact (rhs_1 _ _).trans hk)
  rw [el, er]

/-! ## One gate's matrix and one gate's bias row -/

/-- The slice at `o` of the stack of three matrices, with its unit axis dropped, at (q, k) is the stack at (o, q, k). -/
theorem wslice_apply (o : Nat) (ho : o < 3) (w : FVec Ideal S3x1024x1024 .bf16) (hs : S3x1024x1024.Slices ![o, 0, 0] S1x1024x1024)
    (q k : Fin 1024) :
    shapeCast S1024x1024 (extractStridedSlice S1x1024x1024 ![o, 0, 0] w hs) shapeCasts_S1x1024x1024_S1024x1024 (ix2 q k)
      = w (ix3 (⟨o, ho⟩ : Fin 3) q k) := by
  rw [shapeCast_apply _ shapeCasts_S1x1024x1024_S1024x1024 (ix2 q k) (ix3 (0 : Fin 1) q k)
    (by rewrite [Shape.rowMajor_val_three, Shape.rowMajor_val_two]; show (0 * 1024 + q.val) * 1024 + k.val = q.val * 1024 + k.val; omega)]
  exact extractStridedSlice_apply ![o, 0, 0] w hs (ix3 (0 : Fin 1) q k) (ix3 (⟨o, ho⟩ : Fin 3) q k) (fun a => match a with
    | ⟨0, _⟩ => by show o = o + 0; omega
    | ⟨1, _⟩ => by show q.val = 0 + q.val; omega
    | ⟨2, _⟩ => by show k.val = 0 + k.val; omega)

/-- The slice at `o` of the three bias rows, repeated down the 256 rows of a block, at (p, q) is the bias at (o, q). -/
theorem brow_apply (o : Nat) (ho : o < 3) (b : FVec Ideal S3x1024 .f32) (hs : S3x1024.Slices ![o, 0] S1x1024) (p : Fin 256) (q : Fin 1024) :
    broadcastTo S256x1024 (shapeCast S1x1024 (shapeCast S1024 (extractStridedSlice S1x1024 ![o, 0] b hs) shapeCasts_S1x1024_S1024) shapeCasts_S1024_S1x1024)
        broadcasts_S1x1024_S256x1024 (ix2 p q)
      = b (ix2 (⟨o, ho⟩ : Fin 3) q) := by
  rw [shapeCast_shapeCast]
  rw [broadcastTo_apply _ broadcasts_S1x1024_S256x1024 (ix2 p q) (ix2 (0 : Fin 1) q) (fun a => match a with
    | ⟨0, _⟩ => rfl
    | ⟨1, _⟩ => rfl)]
  exact extractStridedSlice_apply ![o, 0] b hs (ix2 (0 : Fin 1) q) (ix2 (⟨o, ho⟩ : Fin 3) q) (fun a => match a with
    | ⟨0, _⟩ => by show o = o + 0; omega
    | ⟨1, _⟩ => by show q.val = 0 + q.val; omega)

/-! ## The body's values at an index -/

open Cert.Gru in
/-- A gate's pre-activation as the body spells it — the two products, added, plus the repeated bias row — at (p, q). -/
theorem gate_apply (o : Nat) (ho : o < 3) (xb ub : FVec Ideal S256x1024 .bf16) (W V : FVec Ideal S3x1024x1024 .bf16) (b : FVec Ideal S3x1024 .f32)
    (hsW : S3x1024x1024.Slices ![o, 0, 0] S1x1024x1024) (hsb : S3x1024.Slices ![o, 0] S1x1024) (p : Fin 256) (q : Fin 1024) :
    addf (addf (matmul dot_S256x1024_S1024x1024_S256x1024_1_1_0_0_n_n none xb (shapeCast S1024x1024 (extractStridedSlice S1x1024x1024 ![o, 0, 0] W hsW) shapeCasts_S1x1024x1024_S1024x1024) (constant S256x1024 .f32 0x00000000#32))
               (matmul dot_S256x1024_S1024x1024_S256x1024_1_1_0_0_n_n none ub (shapeCast S1024x1024 (extractStridedSlice S1x1024x1024 ![o, 0, 0] V hsW) shapeCasts_S1x1024x1024_S1024x1024) (constant S256x1024 .f32 0x00000000#32)))
         (broadcastTo S256x1024 (shapeCast S1x1024 (shapeCast S1024 (extractStridedSlice S1x1024 ![o, 0] b hsb) shapeCasts_S1x1024_S1024) shapeCasts_S1024_S1x1024) broadcasts_S1x1024_S256x1024)
         (ix2 p q)
      = gate (⟨o, ho⟩ : Fin 3) (fun k => xb (ix2 p k)) (fun k => ub (ix2 p k)) W V b q := by
  show (matmul dot_S256x1024_S1024x1024_S256x1024_1_1_0_0_n_n none xb _ _ (ix2 p q) + matmul dot_S256x1024_S1024x1024_S256x1024_1_1_0_0_n_n none ub _ _ (ix2 p q)) + broadcastTo S256x1024 _ _ (ix2 p q) = _
  rw [matmulT_apply, matmulT_apply, brow_apply o ho]
  simp only [wslice_apply o ho]
  rfl

/-- Recasting the weight stack to its own shape changes nothing. -/
theorem pay4_eq (w : Vec Ideal S3x1024x1024 .bf16) : k0_pay4 (F := Ideal) w = w := shapeCast_self _ _
theorem pay5_eq (w : Vec Ideal S3x1024x1024 .bf16) : k0_pay5 (F := Ideal) w = w := shapeCast_self _ _

/-- The candidate's recurrent matrix at (q, k). -/
theorem pay9_apply (x3 : Vec Ideal S3x1024x1024 .bf16) (q k : Fin 1024) :
    k0_pay9 (F := Ideal) x3 (ix2 q k) = x3 (ix3 (2 : Fin 3) q k) := by
  unfold k0_pay9
  rw [pay5_eq]
  exact wslice_apply 2 (by decide) x3 _ q k

/-- The candidate's input product at (p, q). -/
theorem pay6_apply (x0 : Vec Ideal S256x1024 .f32) (x2 : Vec Ideal S3x1024x1024 .bf16) (p : Fin 256) (q : Fin 1024) :
    k0_pay6 (F := Ideal) x0 x2 (ix2 p q) = ∑ k : Fin 1024, x0 (ix2 p k) * x2 (ix3 (2 : Fin 3) q k) := by
  unfold k0_pay6
  rw [pay4_eq]
  refine (matmulT_apply (k0_pay2 x0) _ p q).trans ?_
  simp only [wslice_apply 2 (by decide)]
  rfl

open Cert.Gru in
/-- The update gate at (p, q). -/
theorem pay7_apply (x0 x1 : Vec Ideal S256x1024 .f32) (x2 x3 : Vec Ideal S3x1024x1024 .bf16) (x4 : Vec Ideal S3x1024 .f32) (p : Fin 256) (q : Fin 1024) :
    k0_pay7 (F := Ideal) x0 x1 x2 x3 x4 (ix2 p q)
      = Ideal.logistic (gate 0 (fun k => x0 (ix2 p k)) (fun k => x1 (ix2 p k)) x2 x3 x4 q) := by
  unfold k0_pay7
  rw [pay4_eq, pay5_eq]
  exact congrArg Ideal.logistic (gate_apply 0 (by decide) (k0_pay2 x0) (k0_pay3 x1) x2 x3 x4 _ _ p q)

open Cert.Gru in
/-- The hidden state scaled by the reset gate, at (p, k). -/
theorem pay8_apply (x0 x1 : Vec Ideal S256x1024 .f32) (x2 x3 : Vec Ideal S3x1024x1024 .bf16) (x4 : Vec Ideal S3x1024 .f32) (p : Fin 256) (k : Fin 1024) :
    k0_pay8 (F := Ideal) x0 x1 x2 x3 x4 (ix2 p k)
      = x1 (ix2 p k) * Ideal.logistic (gate 1 (fun k => x0 (ix2 p k)) (fun k => x1 (ix2 p k)) x2 x3 x4 k) := by
  unfold k0_pay8
  rw [pay4_eq, pay5_eq]
  exact congrArg (x1 (ix2 p k) * Ideal.logistic ·) (gate_apply 1 (by decide) (k0_pay2 x0) (k0_pay3 x1) x2 x3 x4 _ _ p k)

/-- The stored value from the values it is computed from, at (p, q): `(1 − z) · max((a + u·wᵀ) + bias, 0) + z · h`. -/
theorem pay1_apply (v2 : Vec Ideal S256x1024 .f32) (v8 : Vec Ideal S3x1024 .f32) (v17 v30 : FVec Ideal S256x1024 .f32)
    (v39 : FVec Ideal S256x1024 .bf16) (v41 : FVec Ideal S1024x1024 .bf16) (p : Fin 256) (q : Fin 1024) :
    k0_pay1 (F := Ideal) v2 v8 v17 v30 v39 v41 (ix2 p q)
      = (Ideal.ofBits .f32 0x3F800000#32 - v30 (ix2 p q))
          * max ((v17 (ix2 p q) + ∑ k : Fin 1024, v39 (ix2 p k) * v41 (ix2 q k)) + v8 (ix2 (2 : Fin 3) q)) (Ideal.ofBits .f32 0x00000000#32)
        + v30 (ix2 p q) * v2 (ix2 p q) := by
  unfold k0_pay1
  show (Ideal.ofBits .f32 0x3F800000#32 - v30 (ix2 p q))
        * max ((v17 (ix2 p q) + matmul dot_S256x1024_S1024x1024_S256x1024_1_1_0_0_n_n none v39 v41 (constant S256x1024 .f32 0x00000000#32) (ix2 p q))
                + broadcastTo S256x1024 _ broadcasts_S1x1024_S256x1024 (ix2 p q)) (Ideal.ofBits .f32 0x00000000#32)
      + v30 (ix2 p q) * v2 (ix2 p q) = _
  rw [matmulT_apply, brow_apply 2 (by decide)]
  rfl

/-! ## The stored block -/

theorem hz2 : (![0, 0] : Fin 2 → Nat) = fun _ => 0 := funext fun a => by fin_cases a <;> rfl
theorem hz3 : (![0, 0, 0] : Fin 3 → Nat) = fun _ => 0 := funext fun a => by fin_cases a <;> rfl

/-- The block the body leaves in the output buffer is its one stored value: the single store covers the buffer, and
    each load reads a whole block. -/
theorem out_eq_pay {F : FTy → Type} [FloatOps F] (x0 x1 : Vec F S256x1024 .f32) (x2 x3 : Vec F S3x1024x1024 .bf16) (x4 : Vec F S3x1024 .f32) :
    out0_5 x0 x1 x2 x3 x4
      = k0_pay1 x1 x4 (k0_pay6 x0 x2) (k0_pay7 x0 x1 x2 x3 x4) (k0_pay8 x0 x1 x2 x3 x4) (k0_pay9 x3) := by
  unfold out0_5
  rw [View.canon_unit_zero hz2]
  simp only [View.ld_unit_zero (S := S256x1024) hz2, View.ld_unit_zero (S := S3x1024x1024) hz3, View.ld_unit_zero (S := S3x1024) hz2]

open Cert.Gru in
/-- THE BLOCK AT (p, q) is the recurrent cell of row `p` of the input block and of the hidden-state block. -/
theorem out_apply (x0 x1 : Vec Ideal S256x1024 .f32) (x2 x3 : Vec Ideal S3x1024x1024 .bf16) (x4 : Vec Ideal S3x1024 .f32) (p : Fin 256) (q : Fin 1024) :
    out0_5 (F := Ideal) x0 x1 x2 x3 x4 (ix2 p q)
      = cell (fun k => x0 (ix2 p k)) (fun k => x1 (ix2 p k)) x2 x3 x4 q := by
  rw [out_eq_pay, pay1_apply, pay6_apply, pay7_apply]
  simp only [pay8_apply, pay9_apply]
  rfl

end Cert.KernelIdeal.Body

end
-- ==== Proof.WholeBatch.lean ====
/-
  From the 64 blocks to the whole batch.

  Grid point `t` works on batch rows 256·t … 256·t + 255: the input's and the hidden state's windows, and the
  output's, all sit at block (t, 0), while the weights and the biases are held whole. The weights the kernel sees are
  the arguments' numbers (the host's change of float format in front of the call keeps every extended real). So what
  point `t` writes back is block `t` of the recurrent layer of the ARGUMENT arrays, the 64 blocks cover the result
  array, and the array ends holding the layer.
-/
import proofs.«114432_j51187420234361_1_alg».proof.Proof.Gen.KernelIdeal.Value
import proofs.«114432_j51187420234361_1_alg».proof.Proof.BodyIsCell
import proofs.«114432_j51187420234361_1_alg».proof.Proof.GruSpec
import Idealize.ShloMosaic.Lib.Pipeline.Value
import Idealize.ShloMosaic.Lib.StableHlo.Run
import Idealize.ShloMosaic.Lib.ValueIdx

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the region finds -/

/-- The input weights as the kernel sees them: the argument's numbers. -/
theorem V_wih (c : Dev nD) : (V m c main_v0 : S3x1024x1024.Idx → EReal) = m ((c : Thread nD τ).loc main_arg2) := by
  dsimp only [Gen.V, Gen.hostOps0]; after_results; rfl

/-- The recurrent weights as the kernel sees them: the argument's numbers. -/
theorem V_whh (c : Dev nD) : (V m c main_v1 : S3x1024x1024.Idx → EReal) = m ((c : Thread nD τ).loc main_arg3) := by
  dsimp only [Gen.V, Gen.hostOps0]; after_results; rfl

/-! ## Where each window sits at a point -/

/-- The printed index maps over the 64 points: the row windows at block (t, 0), the others at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Batch row `256·t + p`: row `p` of point `t`'s block. -/
def rowOf (t : Fin cfg0.N) (p : Fin 256) : Fin 16384 :=
  ⟨t.val * 256 + p.val, by have h : t.val < 64 := lt_of_lt_of_eq t.isLt (show cfg0.N = 64 from N_0); have := p.isLt; omega⟩

/-- Point `t`'s input block at (p, k) is the input argument at (256·t + p, k). -/
theorem xblk_apply (c : Dev nD) (t : Fin cfg0.N) (p : Fin 256) (k : Fin 1024) :
    (iblk m c 0 t : Vec Ideal S256x1024 .f32) (ix2 p k) = m ((c : Thread nD τ).loc main_arg0) (ix2 (rowOf t p) k) := by
  obtain ⟨e0, e1, -⟩ := idx_facts t
  rw [← V_main_arg0 m c]
  show V m c main_arg0 (((cfg0.win 0).blk t).view.emb (ix2 p k)) = V m c main_arg0 (ix2 (rowOf t p) k)
  refine congrArg (V m c main_arg0) (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

/-- Point `t`'s hidden-state block at (p, k) is the hidden-state argument at (256·t + p, k). -/
theorem hblk_apply (c : Dev nD) (t : Fin cfg0.N) (p : Fin 256) (k : Fin 1024) :
    (iblk m c 1 t : Vec Ideal S256x1024 .f32) (ix2 p k) = m ((c : Thread nD τ).loc main_arg1) (ix2 (rowOf t p) k) := by
  obtain ⟨-, -, e0, e1, -⟩ := idx_facts t
  rw [← V_main_arg1 m c]
  show V m c main_arg1 (((cfg0.win 1).blk t).view.emb (ix2 p k)) = V m c main_arg1 (ix2 (rowOf t p) k)
  refine congrArg (V m c main_arg1) (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

/-- The input-weight window holds the whole argument at every point. -/
theorem wih_blk (c : Dev nD) (t : Fin cfg0.N) :
    (iblk m c 2 t : Vec Ideal S3x1024x1024 .bf16) = m ((c : Thread nD τ).loc main_arg2) := by
  obtain ⟨-, -, -, -, e0, e1, e2, -⟩ := idx_facts t
  rw [← V_wih m c]
  funext (j : S3x1024x1024.Idx)
  show V m c main_v0 (((cfg0.win 2).blk t).view.emb j) = V m c main_v0 j
  refine congrArg (V m c main_v0) (funext fun a => Fin.ext ?_)
  match a with
  | ⟨0, _⟩ => show win0_2.index t (0 : Fin 3) * 3 + 1 * (j 0).val = (j 0).val; omega
  | ⟨1, _⟩ => show win0_2.index t (1 : Fin 3) * 1024 + 1 * (j 1).val = (j 1).val; omega
  | ⟨2, _⟩ => show win0_2.index t (2 : Fin 3) * 1024 + 1 * (j 2).val = (j 2).val; omega

/-- The recurrent-weight window holds the whole argument at every point. -/
theorem whh_blk (c : Dev nD) (t : Fin cfg0.N) :
    (iblk m c 3 t : Vec Ideal S3x1024x1024 .bf16) = m ((c : Thread nD τ).loc main_arg3) := by
  obtain ⟨-, -, -, -, -, -, -, e0, e1, e2, -⟩ := idx_facts t
  rw [← V_whh m c]
  funext (j : S3x1024x1024.Idx)
  show V m c main_v1 (((cfg0.win 3).blk t).view.emb j) = V m c main_v1 j
  refine congrArg (V m c main_v1) (funext fun a => Fin.ext ?_)
  match a with
  | ⟨0, _⟩ => show win0_3.index t (0 : Fin 3) * 3 + 1 * (j 0).val = (j 0).val; omega
  | ⟨1, _⟩ => show win0_3.index t (1 : Fin 3) * 1024 + 1 * (j 1).val = (j 1).val; omega
  | ⟨2, _⟩ => show win0_3.index t (2 : Fin 3) * 1024 + 1 * (j 2).val = (j 2).val; omega

/-- The bias window holds the whole argument at every point. -/
theorem bias_blk (c : Dev nD) (t : Fin cfg0.N) :
    (iblk m c 4 t : Vec Ideal S3x1024 .f32) = m ((c : Thread nD τ).loc main_arg4) := by
  obtain ⟨-, -, -, -, -, -, -, -, -, -, e0, e1, -⟩ := idx_facts t
  rw [← V_main_arg4 m c]
  funext (j : S3x1024.Idx)
  show V m c main_arg4 (((cfg0.win 4).blk t).view.emb j) = V m c main_arg4 j
  refine congrArg (V m c main_arg4) (funext fun a => Fin.ext ?_)
  match a with
  | ⟨0, _⟩ => show win0_4.index t (0 : Fin 2) * 3 + 1 * (j 0).val = (j 0).val; omega
  | ⟨1, _⟩ => show win0_4.index t (1 : Fin 2) * 1024 + 1 * (j 1).val = (j 1).val; omega

/-! ## What a point writes back, and the cover -/

/-- The recurrent layer of the argument arrays. -/
abbrev result (c : Dev nD) : Cert.Gru.Batch :=
  Cert.Gru.layer (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT `t` WRITES BACK is block `t` of the layer of the argument arrays. -/
theorem flushed_eq (c : Dev nD) (t : Fin cfg0.N) :
    (dats m 0 c).flushed 5 t = ((cfg0.win 5).blk t).view.read (Elt Ideal) (result m c) := by
  obtain ⟨-, -, -, -, -, -, -, -, -, -, -, -, e0, e1⟩ := idx_facts t
  rw [Value.flushed5]
  funext (j : S256x1024.Idx)
  obtain ⟨p, q, rfl⟩ : ∃ (p : Fin 256) (q : Fin 1024), j = ix2 p q := ⟨j 0, j 1, eq_ix2 j⟩
  show out0_5 (iblk m c 0 t) (iblk m c 1 t) (iblk m c 2 t) (iblk m c 3 t) (iblk m c 4 t) (ix2 p q)
      = result m c (((cfg0.win 5).blk t).view.emb (ix2 p q))
  have hemb : ((cfg0.win 5).blk t).view.emb (ix2 p q) = ix2 (rowOf t p) q := funext fun a => Fin.ext (by
    match a with
    | ⟨0, _⟩ => show win0_5.index t (0 : Fin 2) * 256 + 1 * p.val = t.val * 256 + p.val; omega
    | ⟨1, _⟩ => show win0_5.index t (1 : Fin 2) * 1024 + 1 * q.val = q.val; omega)
  rw [hemb]
  refine (Body.out_apply (iblk m c 0 t) (iblk m c 1 t) (iblk m c 2 t) (iblk m c 3 t) (iblk m c 4 t) p q).trans ?_
  show Cert.Gru.cell _ _ _ _ _ q = Cert.Gru.cell _ _ _ _ _ q
  rw [wih_blk m c t, whh_blk m c t, bias_blk m c t]
  simp only [xblk_apply m c t p, hblk_apply m c t p]

/-- An index of the result array is in point `t`'s block iff each coordinate is in the block's range on its axis. -/
theorem mem_blk (t : Fin cfg0.N) (i : S16384x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v2).slice (win0_5.rect t)).set ↔ _
  rw [View.set_slice_whole, Rect.mem_set_unit]
  exact Iff.rfl

/-- Every index of the result array lies in the block of the point its row falls in. -/
theorem cover (i : S16384x1024.Idx) : ∃ t : Fin cfg0.N, (cfg0.win 5).flush t = true ∧ i ∈ ((cfg0.win 5).blk t).view.set := by
  have hi0 : (i 0).val < 16384 := (i 0).isLt
  have hi1 : (i 1).val < 1024 := (i 1).isLt
  have hN : cfg0.N = 64 := N_0
  let t : Fin cfg0.N := ⟨(i 0).val / 256, by rw [hN]; omega⟩
  obtain ⟨-, -, -, -, -, -, -, -, -, -, -, -, e0, e1⟩ := idx_facts t
  have ht : t.val = (i 0).val / 256 := rfl
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

/-- THE RESULT ARRAY after the run is the layer of the argument arrays. -/
theorem final (c : Dev nD) : (dats m 0 c).arrAt 5 cfg0.N = result m c :=
  (dats m 0 c).arrAt_eq_of_cover 5 (result m c) (fun t _ => flushed_eq m c t) cover

/-! ## The run, read -/

/-- Every weakly fair execution ends with the result array at the layer of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefIsLayer.lean ====
/-
  The reference program, read one element at a time, is the gated recurrent cell of the specification.

  At row `r` and hidden unit `q` the reference forms, for each gate `g`, the input product `Σ_k W(g, q, k) · x(r, k)`
  (one contraction of all three weight matrices, transposed and sliced per gate), the recurrent product
  `Σ_k u(r, k) · V(g, q, k)` against the transposed slice of `V`, and the bias row `b(g, q)`; the logistic function is
  spelled as `1 / (1 + e^(−a))`. Each of these is identified with the specification's term: the index functions of the
  layout operations compose to the coordinates `(g, q, k)`, `(r, k)` and `(g, q)`, the two factors of the input product
  commute under the sum, and the spelled quotient is the logistic function by its definition. The literal one of
  `1 − z` and the literal zero of the rectifier stay the words they are on both sides.
-/
import proofs.«114432_j51187420234361_1_alg».proof.Proof.Gen.ReferenceIdeal.Read
import proofs.«114432_j51187420234361_1_alg».proof.Proof.GruSpec
import Idealize.ShloMosaic.Lib.IdealHost

noncomputable section

namespace Cert.ReferenceIdeal.RefValue

open Cert.ReferenceIdeal Cert.ReferenceIdeal.Read Idealize.ShloMosaic Idealize.ShloMosaic.ValueIdx

/-- A batch of rows, as the reference program's argument type. -/
abbrev TB : Type := (⟨S16384x1024, .f32⟩ : BufTy).Contents (Elt Ideal)
/-- Three stacked weight matrices, as the reference program's argument type. -/
abbrev TW : Type := (⟨S3x1024x1024, .f32⟩ : BufTy).Contents (Elt Ideal)
/-- Three bias rows, as the reference program's argument type. -/
abbrev Tb : Type := (⟨S3x1024, .f32⟩ : BufTy).Contents (Elt Ideal)

/-! ## The input products: one contraction, transposed, sliced per gate and reshaped -/

theorem gi0 (x0 : TB) (x2 : TW) (r : Fin 16384) (q : Fin 1024) :
    val_main_v3 (F := Ideal) x0 x2 (ix2 r q) = ∑ k : Fin 1024, x2 (ix3 (0 : Fin 3) q k) * x0 (ix2 r k) := by
  rw [val_main_v3_apply, val_main_v2_apply, val_main_v1_apply, val_main_v0_apply]
  refine Finset.sum_congr rfl fun k _ => ?_
  have hr := r.isLt
  have hq := q.isLt
  have el : lidx_main_v0 (idx_main_v1 (idx_main_v2 (idx_main_v3 (ix2 r q)))) k = ix3 (0 : Fin 3) q k :=
    funext fun a => Fin.ext (by
      match a with
      | ⟨0, _⟩ => rfl
      | ⟨1, _⟩ => show (r.val * 1024 + q.val) % 1024 = q.val; omega
      | ⟨2, _⟩ => rfl)
  have er : ridx_main_v0 (idx_main_v1 (idx_main_v2 (idx_main_v3 (ix2 r q)))) k = ix2 r k :=
    funext fun a => Fin.ext (by
      match a with
      | ⟨0, _⟩ => show (r.val * 1024 + q.val) / 1024 % 16384 = r.val; omega
      | ⟨1, _⟩ => rfl)
  rw [el, er]

theorem gi1 (x0 : TB) (x2 : TW) (r : Fin 16384) (q : Fin 1024) :
    val_main_v21 (F := Ideal) x0 x2 (ix2 r q) = ∑ k : Fin 1024, x2 (ix3 (1 : Fin 3) q k) * x0 (ix2 r k) := by
  rw [val_main_v21_apply, val_main_v20_apply, val_main_v1_apply, val_main_v0_apply]
  refine Finset.sum_congr rfl fun k _ => ?_
  have hr := r.isLt
  have hq := q.isLt
  have el : lidx_main_v0 (idx_main_v1 (idx_main_v20 (idx_main_v21 (ix2 r q)))) k = ix3 (1 : Fin 3) q k :=
    funext fun a => Fin.ext (by
      match a with
      | ⟨0, _⟩ => rfl
      | ⟨1, _⟩ => show (r.val * 1024 + q.val) % 1024 = q.val; omega
      | ⟨2, _⟩ => rfl)
  have er : ridx_main_v0 (idx_main_v1 (idx_main_v20 (idx_main_v21 (ix2 r q)))) k = ix2 r k :=
    funext fun a => Fin.ext (by
      match a with
      | ⟨0, _⟩ => show (r.val * 1024 + q.val) / 1024 % 16384 = r.val; omega
      | ⟨1, _⟩ => rfl)
  rw [el, er]

theorem gi2 (x0 : TB) (x2 : TW) (r : Fin 16384) (q : Fin 1024) :
    val_main_v39 (F := Ideal) x0 x2 (ix2 r q) = ∑ k : Fin 1024, x2 (ix3 (2 : Fin 3) q k) * x0 (ix2 r k) := by
  rw [val_main_v39_apply, val_main_v38_apply, val_main_v1_apply, val_main_v0_apply]
  refine Finset.sum_congr rfl fun k _ => ?_
  have hr := r.isLt
  have hq := q.isLt
  have el : lidx_main_v0 (idx_main_v1 (idx_main_v38 (idx_main_v39 (ix2 r q)))) k = ix3 (2 : Fin 3) q k :=
    funext fun a => Fin.ext (by
      match a with
      | ⟨0, _⟩ => rfl
      | ⟨1, _⟩ => show (r.val * 1024 + q.val) % 1024 = q.val; omega
      | ⟨2, _⟩ => rfl)
  have er : ridx_main_v0 (idx_main_v1 (idx_main_v38 (idx_main_v39 (ix2 r q)))) k = ix2 r k :=
    funext fun a => Fin.ext (by
      match a with
      | ⟨0, _⟩ => show (r.val * 1024 + q.val) / 1024 % 16384 = r.val; omega
      | ⟨1, _⟩ => rfl)
  rw [el, er]

/-! ## The recurrent weights: a gate's slice, reshaped and transposed, is `V(g, q, k)` at `(k, q)` -/

theorem vt0 (x3 : TW) (k q : Fin 1024) :
    val_main_v6 (F := Ideal) x3 (ix2 k q) = x3 (ix3 (0 : Fin 3) q k) := by
  rw [val_main_v6_apply, val_main_v5_apply, val_main_v4_apply]
  have hk := k.isLt
  have hq := q.isLt
  exact congrArg x3 (funext fun a => Fin.ext (by
    match a with
    | ⟨0, _⟩ => rfl
    | ⟨1, _⟩ => show (q.val * 1024 + k.val) / 1024 % 1024 = q.val; omega
    | ⟨2, _⟩ => show (q.val * 1024 + k.val) % 1024 = k.val; omega))

theorem vt1 (x3 : TW) (k q : Fin 1024) :
    val_main_v24 (F := Ideal) x3 (ix2 k q) = x3 (ix3 (1 : Fin 3) q k) := by
  rw [val_main_v24_apply, val_main_v23_apply, val_main_v22_apply]
  have hk := k.isLt
  have hq := q.isLt
  exact congrArg x3 (funext fun a => Fin.ext (by
    match a with
    | ⟨0, _⟩ => rfl
    | ⟨1, _⟩ => show (q.val * 1024 + k.val) / 1024 % 1024 = q.val; omega
    | ⟨2, _⟩ => show (q.val * 1024 + k.val) % 1024 = k.val; omega))

theorem vt2 (x3 : TW) (k q : Fin 1024) :
    val_main_v43 (F := Ideal) x3 (ix2 k q) = x3 (ix3 (2 : Fin 3) q k) := by
  rw [val_main_v43_apply, val_main_v42_apply, val_main_v41_apply]
  have hk := k.isLt
  have hq := q.isLt
  exact congrArg x3 (funext fun a => Fin.ext (by
    match a with
    | ⟨0, _⟩ => rfl
    | ⟨1, _⟩ => show (q.val * 1024 + k.val) / 1024 % 1024 = q.val; omega
    | ⟨2, _⟩ => show (q.val * 1024 + k.val) % 1024 = k.val; omega))

/-! ## The bias rows, sliced per gate and broadcast over the batch -/

theorem bias0 (x4 : Tb) (r : Fin 16384) (q : Fin 1024) :
    val_main_v12 (F := Ideal) x4 (ix2 r q) = x4 (ix2 (0 : Fin 3) q) := by
  rw [val_main_v12_apply, val_main_v11_apply, val_main_v10_apply, val_main_v9_apply]
  have hq := q.isLt
  exact congrArg x4 (funext fun a => Fin.ext (by
    match a with
    | ⟨0, _⟩ => rfl
    | ⟨1, _⟩ => show q.val % 1024 = q.val; omega))

theorem bias1 (x4 : Tb) (r : Fin 16384) (q : Fin 1024) :
    val_main_v30 (F := Ideal) x4 (ix2 r q) = x4 (ix2 (1 : Fin 3) q) := by
  rw [val_main_v30_apply, val_main_v29_apply, val_main_v28_apply, val_main_v27_apply]
  have hq := q.isLt
  exact congrArg x4 (funext fun a => Fin.ext (by
    match a with
    | ⟨0, _⟩ => rfl
    | ⟨1, _⟩ => show q.val % 1024 = q.val; omega))

theorem bias2 (x4 : Tb) (r : Fin 16384) (q : Fin 1024) :
    val_main_v49 (F := Ideal) x4 (ix2 r q) = x4 (ix2 (2 : Fin 3) q) := by
  rw [val_main_v49_apply, val_main_v48_apply, val_main_v47_apply, val_main_v46_apply]
  have hq := q.isLt
  exact congrArg x4 (funext fun a => Fin.ext (by
    match a with
    | ⟨0, _⟩ => rfl
    | ⟨1, _⟩ => show q.val % 1024 = q.val; omega))

/-! ## The recurrent products of the update and reset gates -/

theorem gh0 (x1 : TB) (x3 : TW) (r : Fin 16384) (q : Fin 1024) :
    val_main_v7 (F := Ideal) x1 x3 (ix2 r q) = ∑ k : Fin 1024, x1 (ix2 r k) * x3 (ix3 (0 : Fin 3) q k) := by
  rw [val_main_v7_apply]
  refine Finset.sum_congr rfl fun k _ => ?_
  have el : lidx_main_v7 (ix2 r q) k = ix2 r k :=
    funext fun a => Fin.ext (by match a with | ⟨0, _⟩ => rfl | ⟨1, _⟩ => rfl)
  have er : ridx_main_v7 (ix2 r q) k = ix2 k q :=
    funext fun a => Fin.ext (by match a with | ⟨0, _⟩ => rfl | ⟨1, _⟩ => rfl)
  rw [el, er, vt0]

theorem gh1 (x1 : TB) (x3 : TW) (r : Fin 16384) (q : Fin 1024) :
    val_main_v25 (F := Ideal) x1 x3 (ix2 r q) = ∑ k : Fin 1024, x1 (ix2 r k) * x3 (ix3 (1 : Fin 3) q k) := by
  rw [val_main_v25_apply]
  refine Finset.sum_congr rfl fun k _ => ?_
  have el : lidx_main_v25 (ix2 r q) k = ix2 r k :=
    funext fun a => Fin.ext (by match a with | ⟨0, _⟩ => rfl | ⟨1, _⟩ => rfl)
  have er : ridx_main_v25 (ix2 r q) k = ix2 k q :=
    funext fun a => Fin.ext (by match a with | ⟨0, _⟩ => rfl | ⟨1, _⟩ => rfl)
  rw [el, er, vt1]

/-! ## The pre-activations of the update and reset gates, and their logistic values -/

theorem pre0 (x0 x1 : TB) (x2 x3 : TW) (x4 : Tb) (r : Fin 16384) (q : Fin 1024) :
    val_main_v13 (F := Ideal) x0 x1 x2 x3 x4 (ix2 r q)
      = Cert.Gru.gate 0 (fun k => x0 (ix2 r k)) (fun k => x1 (ix2 r k)) x2 x3 x4 q := by
  rw [val_main_v13_apply, val_main_v8_apply, gi0, gh0, bias0]
  have hc : (∑ k : Fin 1024, x2 (ix3 (0 : Fin 3) q k) * x0 (ix2 r k))
      = ∑ k : Fin 1024, x0 (ix2 r k) * x2 (ix3 (0 : Fin 3) q k) :=
    Finset.sum_congr rfl fun k _ => mul_comm _ _
  rw [hc]
  rfl

theorem pre1 (x0 x1 : TB) (x2 x3 : TW) (x4 : Tb) (r : Fin 16384) (q : Fin 1024) :
    val_main_v31 (F := Ideal) x0 x1 x2 x3 x4 (ix2 r q)
      = Cert.Gru.gate 1 (fun k => x0 (ix2 r k)) (fun k => x1 (ix2 r k)) x2 x3 x4 q := by
  rw [val_main_v31_apply, val_main_v26_apply, gi1, gh1, bias1]
  have hc : (∑ k : Fin 1024, x2 (ix3 (1 : Fin 3) q k) * x0 (ix2 r k))
      = ∑ k : Fin 1024, x0 (ix2 r k) * x2 (ix3 (1 : Fin 3) q k) :=
    Finset.sum_congr rfl fun k _ => mul_comm _ _
  rw [hc]
  rfl

theorem sig0 (x0 x1 : TB) (x2 x3 : TW) (x4 : Tb) (r : Fin 16384) (q : Fin 1024) :
    val_main_v19 (F := Ideal) x0 x1 x2 x3 x4 (ix2 r q)
      = Ideal.logistic (Cert.Gru.gate 0 (fun k => x0 (ix2 r k)) (fun k => x1 (ix2 r k)) x2 x3 x4 q) := by
  rw [val_main_v19_apply, val_main_v18_apply, val_main_cst_0_apply, val_main_v17_apply, val_main_v16_apply,
    val_main_cst_apply, val_main_v15_apply, val_main_v14_apply, pre0]
  simp only [Ideal.hostDivf_def, Ideal.addf_def, Ideal.hostUnary_exp_def, Ideal.hostNegf_def, Ideal.negf_def,
    Ideal.ofBits_def, Ideal.ofBits_one_f32]
  rfl

theorem sig1 (x0 x1 : TB) (x2 x3 : TW) (x4 : Tb) (r : Fin 16384) (q : Fin 1024) :
    val_main_v37 (F := Ideal) x0 x1 x2 x3 x4 (ix2 r q)
      = Ideal.logistic (Cert.Gru.gate 1 (fun k => x0 (ix2 r k)) (fun k => x1 (ix2 r k)) x2 x3 x4 q) := by
  rw [val_main_v37_apply, val_main_v36_apply, val_main_cst_2_apply, val_main_v35_apply, val_main_v34_apply,
    val_main_cst_1_apply, val_main_v33_apply, val_main_v32_apply, pre1]
  simp only [Ideal.hostDivf_def, Ideal.addf_def, Ideal.hostUnary_exp_def, Ideal.hostNegf_def, Ideal.negf_def,
    Ideal.ofBits_def, Ideal.ofBits_one_f32]
  rfl

/-! ## The candidate: its recurrent operand is the hidden state scaled by the reset gate -/

theorem gh2 (x0 x1 : TB) (x2 x3 : TW) (x4 : Tb) (r : Fin 16384) (q : Fin 1024) :
    val_main_v44 (F := Ideal) x0 x1 x2 x3 x4 (ix2 r q)
      = ∑ k : Fin 1024, (x1 (ix2 r k)
          * Ideal.logistic (Cert.Gru.gate 1 (fun k => x0 (ix2 r k)) (fun k => x1 (ix2 r k)) x2 x3 x4 k))
          * x3 (ix3 (2 : Fin 3) q k) := by
  rw [val_main_v44_apply]
  refine Finset.sum_congr rfl fun k _ => ?_
  have el : lidx_main_v44 (ix2 r q) k = ix2 r k :=
    funext fun a => Fin.ext (by match a with | ⟨0, _⟩ => rfl | ⟨1, _⟩ => rfl)
  have er : ridx_main_v44 (ix2 r q) k = ix2 k q :=
    funext fun a => Fin.ext (by match a with | ⟨0, _⟩ => rfl | ⟨1, _⟩ => rfl)
  rw [el, er, vt2, val_main_v40_apply, sig1]
  rfl

theorem pre2 (x0 x1 : TB) (x2 x3 : TW) (x4 : Tb) (r : Fin 16384) (q : Fin 1024) :
    val_main_v50 (F := Ideal) x0 x1 x2 x3 x4 (ix2 r q)
      = Cert.Gru.gate 2 (fun k => x0 (ix2 r k))
          (fun k => x1 (ix2 r k)
            * Ideal.logistic (Cert.Gru.gate 1 (fun k => x0 (ix2 r k)) (fun k => x1 (ix2 r k)) x2 x3 x4 k))
          x2 x3 x4 q := by
  rw [val_main_v50_apply, val_main_v45_apply, gi2, gh2, bias2]
  have hc : (∑ k : Fin 1024, x2 (ix3 (2 : Fin 3) q k) * x0 (ix2 r k))
      = ∑ k : Fin 1024, x0 (ix2 r k) * x2 (ix3 (2 : Fin 3) q k) :=
    Finset.sum_congr rfl fun k _ => mul_comm _ _
  rw [hc]
  rfl

/-! ## The whole reference is the layer -/

theorem ref_is_layer (x0 x1 : (⟨S16384x1024, .f32⟩ : BufTy).Contents (Elt Ideal)) (x2 x3 : (⟨S3x1024x1024, .f32⟩ : BufTy).Contents (Elt Ideal)) (x4 : (⟨S3x1024, .f32⟩ : BufTy).Contents (Elt Ideal)) :
    Cert.ReferenceIdeal.Read.val_main_v56 (F := Ideal) x0 x1 x2 x3 x4 = Cert.Gru.layer x0 x1 x2 x3 x4 := by
  funext j
  obtain ⟨r, q, rfl⟩ : ∃ (r : Fin 16384) (q : Fin 1024), j = ix2 r q := ⟨j 0, j 1, eq_ix2 j⟩
  rw [Cert.Gru.layer_apply, val_main_v56_apply, val_main_v54_apply, val_main_v55_apply, val_main_v53_apply,
    val_main_v51_apply, val_main_v52_apply, val_main_cst_3_apply, val_main_call0_v0_apply, val_main_call0_cst_apply,
    sig0, pre2]
  rfl

end Cert.ReferenceIdeal.RefValue

end
-- ==== Proof.lean ====
/-
  The certificate of one step of a gated recurrent cell with a rectified candidate, over a batch of 16384 rows of
  1024 features, computed by a kernel on blocks of 256 rows against a reference written with whole-array operations.

  Both programs, read on the extended reals, compute the same function of the five argument arrays (the input `x`,
  the hidden state `h`, the stacked input weights `W` and recurrent weights `V`, the biases `b`): for every row
  and hidden unit,

      z = σ((x·W₀ᵀ + h·V₀ᵀ) + b₀),   r = σ((x·W₁ᵀ + h·V₁ᵀ) + b₁),
      n = max((x·W₂ᵀ + (h ∘ r)·V₂ᵀ) + b₂, 0),   result = (1 − z) · n + z · h

  (`Cert.Gru.layer`, Proof/GruSpec.lean). On the kernel's side: the value a grid point stores at row `p` of its block
  is the cell of row `p` of its input blocks (Proof/BodyIsCell.lean), the weights the kernel holds are the arguments'
  numbers since a change of float format keeps every extended real, point `t`'s blocks are rows 256·t … 256·t + 255 of
  the arguments, and the 64 written blocks cover the result (Proof/WholeBatch.lean). On the reference's side: its one
  contraction of all three input-weight matrices, transposed and sliced per gate, has the factors of each product in
  the other order, which commutativity of the product under the sum repairs; its sigmoid is spelled
  `1 / (1 + e^(−a))`, which is the logistic function by definition (Proof/RefIsLayer.lean). No sum is reordered and
  nothing is distributed or cancelled, so the equality needs no finiteness of the inputs.

  The kernel's and the idealized kernel's frames are the generated ones; the reference's frame is its generated run
  with the result forgotten; the idealization rewrote nothing, so what it preserves is trivial.
-/
import proofs.«114432_j51187420234361_1_alg».proof.Defs
import proofs.«114432_j51187420234361_1_alg».proof.Proof.Gen.Kernel
import proofs.«114432_j51187420234361_1_alg».proof.Proof.Gen.Kernel.Skeleton
import proofs.«114432_j51187420234361_1_alg».proof.Proof.Gen.Kernel.Launch
import proofs.«114432_j51187420234361_1_alg».proof.Proof.Gen.Kernel.Points
import proofs.«114432_j51187420234361_1_alg».proof.Proof.Gen.Kernel.Frame
import proofs.«114432_j51187420234361_1_alg».proof.Proof.Gen.KernelIdeal
import proofs.«114432_j51187420234361_1_alg».proof.Proof.Gen.KernelIdeal.Skeleton
import proofs.«114432_j51187420234361_1_alg».proof.Proof.Gen.KernelIdeal.Launch
import proofs.«114432_j51187420234361_1_alg».proof.Proof.Gen.KernelIdeal.Points
import proofs.«114432_j51187420234361_1_alg».proof.Proof.Gen.KernelIdeal.Frame
import proofs.«114432_j51187420234361_1_alg».proof.Proof.Gen.ReferenceIdeal
import proofs.«114432_j51187420234361_1_alg».proof.Proof.Gen.Pre_finite_inputs
import proofs.«114432_j51187420234361_1_alg».proof.Proof.Gen.KernelIdeal.Value
import proofs.«114432_j51187420234361_1_alg».proof.Proof.Gen.ReferenceIdeal.Run
import proofs.«114432_j51187420234361_1_alg».proof.Proof.Gen.ReferenceIdeal.Read
import proofs.«114432_j51187420234361_1_alg».proof.Proof.GruSpec
import proofs.«114432_j51187420234361_1_alg».proof.Proof.BodyIsCell
import proofs.«114432_j51187420234361_1_alg».proof.Proof.WholeBatch
import proofs.«114432_j51187420234361_1_alg».proof.Proof.RefIsLayer
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result array ends at the recurrent layer of its arguments
    and the reference's at its composed term, which read index by index is the same layer of the same arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, Cert.ReferenceIdeal.RefValue.ref_is_layer,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
